-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S1024x2048 : Shape := ⟨2, ![1024, 2048]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_

variable [Facts]

def fn_part4 {F : FTy → Type} [FloatOps F] (main_arg14 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  main_v73

def fn_part3 {F : FTy → Type} [FloatOps F] (main_arg11 : FVec F S1024x2048 .f32) (main_arg12 : FVec F S1024 .f32) (main_arg13 : FVec F S1024x2048 .f32) (main_arg14 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x2048 .f32 := Host.absf main_arg11
  let main_cst_20 : FVec F S_ .f32 := constant S_ .f32 0x7F800000#32
  let main_v55 : FVec F S1024x2048 .f32 := broadcastInDim S1024x2048 ![] bcast_S_S1024x2048 main_cst_20
  let main_v56 : IVec S1024x2048 1 := cmpf .olt main_v54 main_v55
  let main_c_21 : IVec S_ 1 := constantI S_ 1 1#1
  let main_v57 : IVec S_ 1 := (fun x v => Host.reduce IntOp.andi x v reducesTo_S1024x2048_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x2048 .f32 := Host.absf main_arg13
  let main_cst_24 : FVec F S_ .f32 := constant S_ .f32 0x7F800000#32
  let main_v65 : FVec F S1024x2048 .f32 := broadcastInDim S1024x2048 ![] bcast_S_S1024x2048 main_cst_24
  let main_v66 : IVec S1024x2048 1 := cmpf .olt main_v64 main_v65
  let main_c_25 : IVec S_ 1 := constantI S_ 1 1#1
  let main_v67 : IVec S_ 1 := (fun x v => Host.reduce IntOp.andi x v reducesTo_S1024x2048_S_d0_1 h_S_) main_v66 main_c_25
  fn_part4 (F := F) main_arg14 main_v63 main_v67

def fn_part2 {F : FTy → Type} [FloatOps F] (main_arg7 : FVec F S1024 .f32) (main_arg8 : FVec F S1024x1024 .f32) (main_arg9 : FVec F S1024x1024 .f32) (main_arg10 : FVec F S1024 .f32) (main_arg11 : FVec F S1024x2048 .f32) (main_arg12 : FVec F S1024 .f32) (main_arg13 : FVec F S1024x2048 .f32) (main_arg14 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_v48 main_v49 main_v50

def fn_part1 {F : FTy → Type} [FloatOps F] (main_arg4 : FVec F S1024 .f32) (main_arg5 : FVec F S1024x1024 .f32) (main_arg6 : FVec F S1024x1024 .f32) (main_arg7 : FVec F S1024 .f32) (main_arg8 : FVec F S1024x1024 .f32) (main_arg9 : FVec F S1024x1024 .f32) (main_arg10 : FVec F S1024 .f32) (main_arg11 : FVec F S1024x2048 .f32) (main_arg12 : FVec F S1024 .f32) (main_arg13 : FVec F S1024x2048 .f32) (main_arg14 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S8192x1024 .f32) (main_arg1 : FVec F S8192x1024 .f32) (main_arg2 : FVec F S1024x1024 .f32) (main_arg3 : FVec F S1024x1024 .f32) (main_arg4 : FVec F S1024 .f32) (main_arg5 : FVec F S1024x1024 .f32) (main_arg6 : FVec F S1024x1024 .f32) (main_arg7 : FVec F S1024 .f32) (main_arg8 : FVec F S1024x1024 .f32) (main_arg9 : FVec F S1024x1024 .f32) (main_arg10 : FVec F S1024 .f32) (main_arg11 : FVec F S1024x2048 .f32) (main_arg12 : FVec F S1024 .f32) (main_arg13 : FVec F S1024x2048 .f32) (main_arg14 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S1024x2048 : Shape := ⟨2, ![1024, 2048]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 45
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024x2048, .f32⟩
  | .hbm, ⟨12, _⟩ => ⟨S1024, .f32⟩
  | .hbm, ⟨13, _⟩ => ⟨S1024x2048, .f32⟩
  | .hbm, ⟨14, _⟩ => ⟨S1024, .f32⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .bf16⟩
  | .hbm, ⟨19, _⟩ => ⟨S1024x1024, .f32⟩
  | .hbm, ⟨20, _⟩ => ⟨S1024x1024, .bf16⟩
  | .hbm, ⟨21, _⟩ => ⟨S1024x1024, .f32⟩
  | .hbm, ⟨22, _⟩ => ⟨S1024x1024, .bf16⟩
  | .hbm, ⟨23, _⟩ => ⟨S1024x1024, .f32⟩
  | .hbm, ⟨24, _⟩ => ⟨S1024x1024, .bf16⟩
  | .hbm, ⟨25, _⟩ => ⟨S1024x1024, .f32⟩
  | .hbm, ⟨26, _⟩ => ⟨S1024x1024, .bf16⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S1024x1024, .bf16⟩
  | .hbm, ⟨31, _⟩ => ⟨S1024x1024, .f32⟩
  | .hbm, ⟨32, _⟩ => ⟨S1024x1024, .bf16⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S1024x1024, .bf16⟩
  | .hbm, ⟨37, _⟩ => ⟨S1024x1024, .f32⟩
  | .hbm, ⟨38, _⟩ => ⟨S1024x1024, .bf16⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S1x1024, .f32⟩
  | .hbm, ⟨44, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x1024, .bf16⟩
  | .local _ .vmem, ⟨14, _⟩ => ⟨S1024x1024, .bf16⟩
  | .local _ .vmem, ⟨15, _⟩ => ⟨S1x1024, .f32⟩
  | .local _ .vmem, ⟨16, _⟩ => ⟨S1024x1024, .bf16⟩
  | .local _ .vmem, ⟨17, _⟩ => ⟨S1024x1024, .bf16⟩
  | .local _ .vmem, ⟨18, _⟩ => ⟨S1x1024, .f32⟩
  | .local _ .vmem, ⟨19, _⟩ => ⟨S256x1024, .f32⟩
  | .local _ .vmem, ⟨20, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg17_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem17_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  transposes_S1024x1024_S1024x1024_1_0 : S1024x1024.Transposes [1, 0] S1024x1024
  bitsLt_bf16_f32 : FTy.bits .bf16 < FTy.bits .f32
  slices_S1024x2048_S1024x1024_0_0 : S1024x2048.Slices ![0, 0] S1024x1024
  slices_S1024x2048_S1024x1024_0_1024 : S1024x2048.Slices ![0, 1024] S1024x1024
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  reduces_S256x1024_S256 : S256x1024.Reduces [1] S256
  shapeCasts_S256_S256x1 : S256.ShapeCasts S256x1
  broadcasts_S256x1_S256x1024 : S256x1.Broadcasts S256x1024
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024x1024.size a ≤ S1024x1024.size a
  hwx0_11 : ∀ i : grid0.Coords, EltTy.bits .bf16 = 32 ∨ (Rect.block (s := S1024x1024) S1024x1024.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024x1024.size a ≤ S1024x1024.size a
  hwx0_12 : ∀ i : grid0.Coords, EltTy.bits .bf16 = 32 ∨ (Rect.block (s := S1024x1024) S1024x1024.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1024.size a ≤ S1x1024.size a
  hwx0_13 : ∀ i : grid0.Coords, EltTy.bits .f32 = 32 ∨ (Rect.block (s := S1x1024) S1x1024.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1024x1024.size a ≤ S1024x1024.size a
  hwx0_14 : ∀ i : grid0.Coords, EltTy.bits .bf16 = 32 ∨ (Rect.block (s := S1024x1024) S1024x1024.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1024x1024.size a ≤ S1024x1024.size a
  hwx0_15 : ∀ i : grid0.Coords, EltTy.bits .bf16 = 32 ∨ (Rect.block (s := S1024x1024) S1024x1024.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x1024.size a ≤ S1x1024.size a
  hwx0_16 : ∀ i : grid0.Coords, EltTy.bits .f32 = 32 ∨ (Rect.block (s := S1x1024) S1x1024.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S256x1024.size a ≤ S8192x1024.size a
  hwx0_17 : ∀ i : grid0.Coords, EltTy.bits .f32 = 32 ∨ (Rect.block (s := S8192x1024) S256x1024.size (cc0_transform_17 i) (hinb0_17 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v26) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v15) S1024x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v17) S1024x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v27) S1x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v21) S1024x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v23) S1024x1024.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v28) S1x1024.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v29) S256x1024.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1024x2048 : Shape := ⟨2, ![1024, 2048]⟩
abbrev S8192x2048 : Shape := ⟨2, ![8192, 2048]⟩
abbrev S2048x1024 : Shape := ⟨2, ![2048, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 93
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024x2048, .f32⟩
  | .hbm, ⟨12, _⟩ => ⟨S1024, .f32⟩
  | .hbm, ⟨13, _⟩ => ⟨S1024x2048, .f32⟩
  | .hbm, ⟨14, _⟩ => ⟨S1024, .f32⟩
  | .hbm, ⟨15, _⟩ => ⟨S8192x2048, .f32⟩
  | .hbm, ⟨16, _⟩ => ⟨S2048x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S2048x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S1024x1024, .f32⟩
  | .hbm, ⟨45, _⟩ => ⟨S8192x1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S1024x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192x1024, .f32⟩
  | .hbm, ⟨59, _⟩ => ⟨S8192x1024, .f32⟩
  | .hbm, ⟨60, _⟩ => ⟨S1024x1024, .f32⟩
  | .hbm, ⟨61, _⟩ => ⟨S8192x1024, .f32⟩
  | .hbm, ⟨62, _⟩ => ⟨S1x1024, .f32⟩
  | .hbm, ⟨63, _⟩ => ⟨S8192x1024, .f32⟩
  | .hbm, ⟨64, _⟩ => ⟨S8192x1024, .f32⟩
  | .hbm, ⟨65, _⟩ => ⟨S1024x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S_, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S8192x1024, .f32⟩
  | .hbm, ⟨75, _⟩ => ⟨S8192x1024, .f32⟩
  | .hbm, ⟨76, _⟩ => ⟨S1024x1024, .f32⟩
  | .hbm, ⟨77, _⟩ => ⟨S8192x1024, .f32⟩
  | .hbm, ⟨78, _⟩ => ⟨S1x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S1024x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S_, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_call0_cst : Ref sig .tc := ⟨.hbm, 40, rfl⟩
abbrev main_call0_v0 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_2 : Ref sig .tc := ⟨.hbm, 54, rfl⟩
abbrev main_v34 : Ref sig .tc := ⟨.hbm, 55, rfl⟩
abbrev main_v35 : Ref sig .tc := ⟨.hbm, 56, rfl⟩
abbrev main_cst_3 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_4 : Ref sig .tc := ⟨.hbm, 70, rfl⟩
abbrev main_v48 : Ref sig .tc := ⟨.hbm, 71, rfl⟩
abbrev main_v49 : Ref sig .tc := ⟨.hbm, 72, rfl⟩
abbrev main_cst_5 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_6 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩

abbrev nD : Nat := 1
abbrev τ : Topo := Topo.v7x

variable {F : FTy → Type} [FloatOps F]

class Facts₀ : Prop where
  concatenates_S8192x1024_S8192x1024_S8192x2048_d1 : Shape.Concatenates [S8192x1024, S8192x1024] S8192x2048 1
  transposes_S1024x2048_S2048x1024_1_0 : S1024x2048.Transposes [1, 0] S2048x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  reducesTo_S8192x1024_S8192_d1 : S8192x1024.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  bcast_S_S8192x1024 : S_.BroadcastsInDim S8192x1024 (![] : Fin 0 → Fin S8192x1024.rank)
  transposes_S1024x1024_S1024x1024_1_0 : S1024x1024.Transposes [1, 0] S1024x1024
  dot_S8192x2048_S2048x1024_S8192x1024_1_0_0_1_n_n_wf : DotDims.WF S8192x2048 S2048x1024 S8192x1024 [1] [0] [0] [1] [] []
  dot_S8192x1024_S1024x1024_S8192x1024_1_0_0_1_n_n_wf : DotDims.WF S8192x1024 S1024x1024 S8192x1024 [1] [0] [0] [1] [] []

variable [Facts₀]

def dot_S8192x2048_S2048x1024_S8192x1024_1_0_0_1_n_n : DotDims S8192x2048 S2048x1024 S8192x1024 where
  lhsContracting := [1]
  rhsContracting := [0]
  lhsNonContracting := [0]
  rhsNonContracting := [1]
  lhsBatch := []
  rhsBatch := []
  wf := dot_S8192x2048_S2048x1024_S8192x1024_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.BodyOps.lean ====
/-
  The kernel body's non-pointwise operations read at one entry of a 256 × 1024 block: a matrix
  product into a zero accumulator is the sum over the contracted axis; a bias row broadcast down
  the block reads the row at the entry's column; a per-row value broadcast across the block reads
  it at the entry's row.
-/
import proofs.«133097_j42683384987795_1_alg».proof.Proof.Gen.KernelIdeal.Value
import Idealize.ShloMosaic.Lib.ValueIdx
import Idealize.ShloMosaic.Lib.Pipeline.Value
import Idealize.ShloMosaic.PureOps.Ideal.Laws

noncomputable section

open scoped BigOperators

namespace Cert.GatedCell.Body

open Cert.KernelIdeal Cert.KernelIdeal.Gen Idealize.ShloMosaic Idealize.ShloMosaic.ValueIdx

/-- The left operand's row coordinate is the output's row. -/
theorem lhs_ax0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
/-- The left operand's column coordinate is the contracted one. -/
theorem lhs_ax1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
/-- The right operand's row coordinate is the contracted one. -/
theorem rhs_ax0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
/-- The right operand's column coordinate is the output's column. -/
theorem rhs_ax1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- A 256 × 1024 by 1024 × 1024 product into the zero accumulator, at entry (p, q): Σₖ a(p, k) · w(k, q). -/
theorem mm_apply {φ₁ φ₂ : FTy} (a : FVec Ideal S256x1024 φ₁) (w : FVec Ideal S1024x1024 φ₂) (p : Fin 256) (q : Fin 1024) :
    matmul dot_S256x1024_S1024x1024_S256x1024_1_0_0_1_n_n none a w (constant S256x1024 .f32 0x00000000#32) (ix2 p q)
      = ∑ k : Fin 1024, a (ix2 p k) * w (ix2 k q) := by
  simp only [matmul]
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 p q) ((contrEquiv1 dot_S256x1024_S1024x1024_S256x1024_1_0_0_1_n_n 1024 rfl rfl).symm k) = ix2 p k := funext fun a => Fin.ext (by
    match a with
    | ⟨0, _⟩ => exact lhs_ax0 _ _
    | ⟨1, _⟩ => exact (lhs_ax1 _ _).trans hk)
  have er : dot_S256x1024_S1024x1024_S256x1024_1_0_0_1_n_n.rhsIdx (ix2 p q) ((contrEquiv1 dot_S256x1024_S1024x1024_S256x1024_1_0_0_1_n_n 1024 rfl rfl).symm k) = ix2 k q := funext fun a => Fin.ext (by
    match a with
    | ⟨0, _⟩ => exact (rhs_ax0 _ _).trans hk
    | ⟨1, _⟩ => exact rhs_ax1 _ _)
  rw [el, er]

/-- A bias row broadcast down the block, at entry (p, q): the row at column q. -/
theorem biasRow_apply (v : FVec Ideal S1x1024 .f32) (p : Fin 256) (q : Fin 1024) :
    broadcastTo S256x1024 v broadcasts_S1x1024_S256x1024 (ix2 p q) = v (ix2 0 q) := by
  exact broadcastTo_apply v broadcasts_S1x1024_S256x1024 (ix2 p q) (ix2 0 q) (fun a => match a with
    | ⟨0, _⟩ => by show 0 = (if (1 : Nat) = 1 then 0 else p.val); rw [if_pos rfl]
    | ⟨1, _⟩ => by show q.val = (if (1024 : Nat) = 1 then 0 else q.val); rw [if_neg (by decide)])

/-- A per-row value laid out as a column and broadcast across the block, at entry (p, q): the value of row p. -/
theorem perRow_apply (v : FVec Ideal S256 .f32) (p : Fin 256) (q : Fin 1024) :
    broadcastTo S256x1024 (shapeCast S256x1 v shapeCasts_S256_S256x1) broadcasts_S256x1_S256x1024 (ix2 p q)
      = v (ix1 p) := by
  refine (broadcastTo_apply _ broadcasts_S256x1_S256x1024 (ix2 p q) (ix2 p 0) (fun a => match a with
    | ⟨0, _⟩ => by show p.val = (if (256 : Nat) = 1 then 0 else p.val); rw [if_neg (by decide)]
    | ⟨1, _⟩ => by show 0 = (if (1 : Nat) = 1 then 0 else q.val); rw [if_pos rfl])).trans ?_
  refine shapeCast_apply v shapeCasts_S256_S256x1 (ix2 p 0) (ix1 p) ?_
  rw [Shape.rowMajor_val_one, Shape.rowMajor_val_two]
  show p.val = p.val * 1 + 0
  omega

/-- The row reduction's inserted index: row p with column k put back. -/
theorem lift_row (p : Fin 256) (k : Fin 1024) : reduces_S256x1024_S256.lift (ix1 p) k = ix2 p k :=
  funext fun a => Fin.ext (by match a with | ⟨0, _⟩ => rfl | ⟨1, _⟩ => rfl)

/-- The largest entry of row p of a block, folded from the accumulator's word (−∞). -/
theorem rowMax_apply (src : FVec Ideal S256x1024 .f32) (hφ : FKind.Formats .f32)
    (hacc : (0xFF800000#32 : BitVec 32) = 0xFF800000#32) (p : Fin 256) :
    multiReduction .maximumf [1] S256 src 0xFF800000#32 reduces_S256x1024_S256 hφ hacc (ix1 p)
      = (Finset.univ : Finset (Fin 1024)).fold max (Ideal.ofBits .f32 0xFF800000#32) (fun k => src (ix2 p k)) := by
  refine (Ideal.multiReduction_maximumf_single src 0xFF800000#32 reduces_S256x1024_S256 hφ hacc (ix1 p)).trans ?_
  exact congrArg (fun f : Fin 1024 → EReal => (Finset.univ : Finset (Fin 1024)).fold max (Ideal.ofBits .f32 0xFF800000#32) f)
    (funext fun k => congrArg src (lift_row p k))

/-- The sum of row p of a block. -/
theorem rowSum_apply (src : FVec Ideal S256x1024 .f32) (hφ : FKind.Formats .f32)
    (hacc : (0x00000000#32 : BitVec 32) = 0x00000000#32) (p : Fin 256) :
    multiReduction .add [1] S256 src 0x00000000#32 reduces_S256x1024_S256 hφ hacc (ix1 p)
      = ∑ k : Fin 1024, src (ix2 p k) := by
  refine (Ideal.multiReduction_add_single src 0x00000000#32 reduces_S256x1024_S256 hφ hacc (ix1 p)).trans ?_
  exact Finset.sum_congr rfl fun k _ => congrArg src (lift_row p k)

end Cert.GatedCell.Body

end
-- ==== Proof.CellSpec.lean ====
/-
  The recurrent cell, free of any program: one batch row at a time, over the extended reals.

  A row of the input `xr` and a row of the previous state `hr` (both of length 1024) meet weight
  matrices written `w j k` (output feature `j`, input feature `k`) and bias rows `b j`:

    r j   = σ((Σₖ xr k · wxr j k + Σₖ hr k · whr j k) + br j)            reset gate
    z j   = σ((Σₖ xr k · wxz j k + Σₖ hr k · whz j k) + bz j)            update gate
    c j   = tanh((Σₖ xr k · wxh j k + Σₖ (r k · hr k) · whh j k) + bh j)  candidate state
    s j   = (Σₖ xr k · wcx j k + Σₖ hr k · wch j k) + bc j               attention score
    a j   = exp(s j − max s) / Σₖ exp(s k − max s)                       softmax of the scores over the row
    e j   = max((Σₖ xr k · wax j k + Σₖ hr k · wah j k) + ba j, 0)        rectified extra state
    out j = ((1 − z j) · c j + z j · hr j) + a j · e j

  σ is the logistic function 1 / (1 + e^(−t)) with its values at the infinities, the maximum of the
  scores is taken from −∞ (and once more against −∞, as both programs do), and the three float
  literals −∞, 0 and 1 are kept as their words: the same word stands on both sides and is never
  evaluated. Every sum is a finite sum in the commutative monoid of extended reals, so regrouping
  and splitting it needs no finiteness.
-/
import Idealize.ShloMosaic.PureOps.Ideal
import Idealize.ShloMosaic.PureOps.Ideal.Laws
import Idealize.ShloMosaic.Lib.ValueIdx

noncomputable section

open scoped BigOperators

namespace Cert.GatedCell

open Idealize.ShloMosaic Idealize.ShloMosaic.ValueIdx

/-- A length-1024 row. -/
abbrev Row : Type := Fin 1024 → EReal
/-- A 1024 × 1024 matrix, `w j k`: output feature `j`, input feature `k`. -/
abbrev Mat : Type := Fin 1024 → Fin 1024 → EReal

/-- The words of −∞, 0 and 1 at f32, as extended reals. -/
abbrev negInf : EReal := Ideal.ofBits .f32 0xFF800000#32
abbrev zeroW : EReal := Ideal.ofBits .f32 0x00000000#32
abbrev oneW : EReal := Ideal.ofBits .f32 0x3F800000#32

/-- The word of 1.0 denotes 1. -/
theorem oneW_eq : oneW = 1 := IdealRules.sign_bit.ideal_onePat .f32

/-- A row against row `j` of a matrix. -/
def dotv (a : Row) (w : Mat) (j : Fin 1024) : EReal := ∑ k : Fin 1024, a k * w j k

/-- A gate: the logistic function of two projections and a bias. -/
def gate (xr hr : Row) (wx wh : Mat) (b : Row) (j : Fin 1024) : EReal :=
  Ideal.logistic ((dotv xr wx j + dotv hr wh j) + b j)

/-- The candidate state: the state's projection sees the state damped by the reset gate. -/
def cand (xr hr : Row) (wxr whr : Mat) (br : Row) (wxh whh : Mat) (bh : Row) (j : Fin 1024) : EReal :=
  Ideal.tanh ((dotv xr wxh j + dotv (fun k => gate xr hr wxr whr br k * hr k) whh j) + bh j)

/-- An affine score of the concatenated row `[xr, hr]`, its wide weight given as two halves. -/
def score (xr hr : Row) (wx wh : Mat) (b : Row) (j : Fin 1024) : EReal :=
  (dotv xr wx j + dotv hr wh j) + b j

/-- The largest entry of a row, from −∞, and once more against −∞. -/
def top (s : Row) : EReal := max negInf ((Finset.univ : Finset (Fin 1024)).fold max negInf s)

/-- The softmax of a row. -/
def softmax (s : Row) (j : Fin 1024) : EReal :=
  Ideal.div (Ideal.exp (s j - top s)) (∑ k : Fin 1024, Ideal.exp (s k - top s))

/-- One row of the cell's new state. -/
def cellRow (xr hr : Row) (wxr whr wxz whz wxh whh wcx wch wax wah : Mat) (br bz bh bc ba : Row) (j : Fin 1024) : EReal :=
  ((oneW - gate xr hr wxz whz bz j) * cand xr hr wxr whr br wxh whh bh j + gate xr hr wxz whz bz j * hr j)
    + softmax (score xr hr wcx wch bc) j * max (score xr hr wax wah ba j) zeroW

/-- The low and the high half of a length-2048 axis. -/
abbrev lo (k : Fin 1024) : Fin 2048 := ⟨k.val, by omega⟩
abbrev hi (k : Fin 1024) : Fin 2048 := ⟨1024 + k.val, by omega⟩

/-- A sum over 2048 terms is the sum over its low half plus the sum over its high half. -/
theorem sum_halves {M : Type*} [AddCommMonoid M] (f : Fin 2048 → M) :
    ∑ k : Fin 2048, f k = ∑ k : Fin 1024, f (lo k) + ∑ k : Fin 1024, f (hi k) :=
  Fin.sum_univ_add (a := 1024) (b := 1024) f

/-- The arrays the cell is applied to: batch × feature, square and wide weights, bias vectors. -/
abbrev BatchArr : Type := (⟨2, ![8192, 1024]⟩ : Shape).Idx → EReal
abbrev SquareArr : Type := (⟨2, ![1024, 1024]⟩ : Shape).Idx → EReal
abbrev WideArr : Type := (⟨2, ![1024, 2048]⟩ : Shape).Idx → EReal
abbrev FeatArr : Type := (⟨1, ![1024]⟩ : Shape).Idx → EReal

/-- The cell on whole arrays, at batch row b and feature j: row b of `x` and of the state, every weight read as
    `w j k`, the two wide weights as their low and high halves of columns. -/
def cellAt (x h : BatchArr) (wxr whr wxz whz wxh whh : SquareArr) (wc wa : WideArr) (br bz bh bc ba : FeatArr)
    (b : Fin 8192) (j : Fin 1024) : EReal :=
  cellRow (fun k => x (ix2 b k)) (fun k => h (ix2 b k))
    (fun j k => wxr (ix2 j k)) (fun j k => whr (ix2 j k)) (fun j k => wxz (ix2 j k)) (fun j k => whz (ix2 j k))
    (fun j k => wxh (ix2 j k)) (fun j k => whh (ix2 j k))
    (fun j k => wc (ix2 j (lo k))) (fun j k => wc (ix2 j (hi k))) (fun j k => wa (ix2 j (lo k))) (fun j k => wa (ix2 j (hi k)))
    (fun j => br (ix1 j)) (fun j => bz (ix1 j)) (fun j => bh (ix1 j)) (fun j => bc (ix1 j)) (fun j => ba (ix1 j)) j

/-- The new state as one array. -/
def cellArr (x h : BatchArr) (wxr whr wxz whz wxh whh : SquareArr) (wc wa : WideArr) (br bz bh bc ba : FeatArr) : BatchArr :=
  fun i => cellAt x h wxr whr wxz whz wxh whh wc wa br bz bh bc ba ⟨(i 0).val, idx2_lt0 i⟩ ⟨(i 1).val, idx2_lt1 i⟩

theorem cellArr_apply (x h : BatchArr) (wxr whr wxz whz wxh whh : SquareArr) (wc wa : WideArr) (br bz bh bc ba : FeatArr)
    (b : Fin 8192) (j : Fin 1024) :
    cellArr x h wxr whr wxz whz wxh whh wc wa br bz bh bc ba (ix2 b j) = cellAt x h wxr whr wxz whz wxh whh wc wa br bz bh bc ba b j := rfl

end Cert.GatedCell

end
-- ==== Proof.BodyCell.lean ====
/-
  The kernel body's block, entry by entry, is the cell applied to the block's rows.

  The body loads a 256-row block of `x` and of the state, the ten transposed weight matrices
  (entry (k, j) of a loaded matrix is the weight from input feature k to output feature j) and
  the five bias rows. Read at entry (p, q) of the block:
    · each gate is the logistic function of two row-by-column products and a bias entry;
    · the candidate's second product contracts the gated state r ⊙ h of row p;
    · the attention weight is the softmax over row p of the scores;
  so the stored entry is `cellRow` of row p of the two loaded blocks, at column q.
-/
import proofs.«133097_j42683384987795_1_alg».proof.Proof.BodyOps
import proofs.«133097_j42683384987795_1_alg».proof.Proof.CellSpec

noncomputable section

open scoped BigOperators

namespace Cert.GatedCell.Body

open Cert.KernelIdeal Cert.KernelIdeal.Gen Cert.KernelIdeal.Value Idealize.ShloMosaic Idealize.ShloMosaic.ValueIdx Cert.GatedCell

section Pointwise
variable {s : Shape} {φ : FTy}
/-- The three transcendental vector operations at an index are the extended reals' functions of the element. -/
theorem logistic_apply (a : FVec Ideal s φ) (i : s.Idx) : logistic a i = Ideal.logistic (a i) := rfl
theorem tanh_apply (a : FVec Ideal s φ) (i : s.Idx) : tanh a i = Ideal.tanh (a i) := rfl
theorem exp_apply (a : FVec Ideal s φ) (i : s.Idx) : exp a i = Ideal.exp (a i) := rfl
end Pointwise

/-- Row p of a block. -/
abbrev rowOf (v : Vec Ideal S256x1024 .f32) (p : Fin 256) : Row := fun k => v (ix2 p k)
/-- A loaded (transposed) matrix as `w j k`. -/
abbrev matOf (w : S1024x1024.Idx → EReal) : Mat := fun j k => w (ix2 k j)
/-- A loaded bias row. -/
abbrev biasOf (b : Vec Ideal S1x1024 .f32) : Row := fun j => b (ix2 0 j)

/-- A gate's payload at (p, q). -/
theorem pay4_apply (v0 v1 : Vec Ideal S256x1024 .f32) (v16 v19 : Vec Ideal S1024x1024 .bf16) (v23 : Vec Ideal S1x1024 .f32)
    (p : Fin 256) (q : Fin 1024) :
    k0_pay4 v0 v1 v16 v19 v23 (ix2 p q) = gate (rowOf v0 p) (rowOf v1 p) (matOf v16) (matOf v19) (biasOf v23) q := by
  unfold k0_pay4 k0_pay2 k0_pay3
  simp only [logistic_apply, addf_apply, mm_apply, shapeCast_self, truncf_apply]
  rw [biasRow_apply]
  rfl

/-- A plain projection's payload at (p, q). -/
theorem pay5_apply (v0 : Vec Ideal S256x1024 .f32) (v28 : Vec Ideal S1024x1024 .bf16) (p : Fin 256) (q : Fin 1024) :
    k0_pay5 v0 v28 (ix2 p q) = dotv (rowOf v0 p) (matOf v28) q := by
  unfold k0_pay5 k0_pay2
  simp only [mm_apply, shapeCast_self, truncf_apply]
  rfl

/-- The gated state's payload at (p, q): the reset gate times the state. -/
theorem pay6_apply (v0 v1 : Vec Ideal S256x1024 .f32) (v4 v7 : Vec Ideal S1024x1024 .bf16) (v11 : Vec Ideal S1x1024 .f32)
    (p : Fin 256) (q : Fin 1024) :
    k0_pay6 v0 v1 v4 v7 v11 (ix2 p q)
      = gate (rowOf v0 p) (rowOf v1 p) (matOf v4) (matOf v7) (biasOf v11) q * v1 (ix2 p q) := by
  unfold k0_pay6 k0_pay2 k0_pay3
  simp only [truncf_apply, mulf_apply, logistic_apply, addf_apply, mm_apply, shapeCast_self]
  rw [biasRow_apply]
  rfl

/-- The candidate's payload at (p, q), over the projection of `x` and the gated state it is given. -/
theorem pay7_apply (v30 : FVec Ideal S256x1024 .f32) (v32 : FVec Ideal S256x1024 .bf16) (v33 : Vec Ideal S1024x1024 .bf16)
    (v37 : Vec Ideal S1x1024 .f32) (p : Fin 256) (q : Fin 1024) :
    k0_pay7 v30 v32 v33 v37 (ix2 p q)
      = Ideal.tanh ((v30 (ix2 p q) + ∑ k : Fin 1024, v32 (ix2 p k) * v33 (ix2 k q)) + v37 (ix2 0 q)) := by
  unfold k0_pay7
  simp only [tanh_apply, addf_apply, mm_apply, shapeCast_self]
  rw [biasRow_apply]

/-- The extra state's two projections at (p, q). -/
theorem pay9_apply (v2 v3 : FVec Ideal S256x1024 .bf16) (v64 v67 : Vec Ideal S1024x1024 .bf16) (p : Fin 256) (q : Fin 1024) :
    k0_pay9 v2 v3 v64 v67 (ix2 p q)
      = ∑ k : Fin 1024, v2 (ix2 p k) * v64 (ix2 k q) + ∑ k : Fin 1024, v3 (ix2 p k) * v67 (ix2 k q) := by
  unfold k0_pay9
  simp only [addf_apply, mm_apply, shapeCast_self]

/-- The attention weight's payload at (p, q): the softmax over row p of the scores. -/
theorem pay8_apply (v2 v3 : FVec Ideal S256x1024 .bf16) (v42 v45 : Vec Ideal S1024x1024 .bf16) (v49 : Vec Ideal S1x1024 .f32)
    (p : Fin 256) (q : Fin 1024) :
    k0_pay8 v2 v3 v42 v45 v49 (ix2 p q)
      = softmax (fun j => (∑ k : Fin 1024, v2 (ix2 p k) * v42 (ix2 k j) + ∑ k : Fin 1024, v3 (ix2 p k) * v45 (ix2 k j)) + v49 (ix2 0 j)) q := by
  unfold k0_pay8
  simp only [divf_apply, exp_apply, subf_apply, shapeCast_self]
  rw [perRow_apply, perRow_apply, rowSum_apply]
  simp only [exp_apply, subf_apply, perRow_apply, maximumf_apply, broadcast_apply]
  rw [rowMax_apply]
  simp only [addf_apply, mm_apply, biasRow_apply]
  rfl

/-- Where the block's entry (p, q) reads each whole value: at (p, q) itself, and the last bias row at (0, q). -/
theorem ix17_0_eq (p : Fin 256) (q : Fin 1024) : ix17_0 (ix2 p q) = ix2 p q :=
  funext fun a => Fin.ext (by match a with | ⟨0, _⟩ => rfl | ⟨1, _⟩ => rfl)
theorem ix17_1_eq (p : Fin 256) (q : Fin 1024) : ix17_1 (ix2 p q) = ix2 p q :=
  funext fun a => Fin.ext (by match a with | ⟨0, _⟩ => rfl | ⟨1, _⟩ => rfl)
theorem ix17_2_eq (p : Fin 256) (q : Fin 1024) : ix17_2 (ix2 p q) = ix2 p q :=
  funext fun a => Fin.ext (by match a with | ⟨0, _⟩ => rfl | ⟨1, _⟩ => rfl)
theorem ix17_3_eq (p : Fin 256) (q : Fin 1024) : ix17_3 (ix2 p q) = ix2 p q :=
  funext fun a => Fin.ext (by match a with | ⟨0, _⟩ => rfl | ⟨1, _⟩ => rfl)
theorem ix17_4_eq (p : Fin 256) (q : Fin 1024) : ix17_4 (ix2 p q) = ix2 p q :=
  funext fun a => Fin.ext (by match a with | ⟨0, _⟩ => rfl | ⟨1, _⟩ => rfl)
theorem ix17_5_eq (p : Fin 256) (q : Fin 1024) : ix17_5 (ix2 p q) = ix2 p q :=
  funext fun a => Fin.ext (by match a with | ⟨0, _⟩ => rfl | ⟨1, _⟩ => rfl)
theorem ix17_6_eq (p : Fin 256) (q : Fin 1024) : ix17_6 (ix2 p q) = ix2 0 q :=
  funext fun a => Fin.ext (by match a with | ⟨0, _⟩ => rfl | ⟨1, _⟩ => rfl)

/-- THE BLOCK, entry by entry: what the body stores at (p, q) is the cell applied to row p of the two loaded
    blocks, at column q. (The loads are named as the block function names them: P2, P3, P4 the update gate's
    weights and bias, P5 the candidate's input weight, P6, P7, P8 the reset gate's, P9, P10 the candidate's
    state weight and bias, P11, P12, P13 the attention scores', P14, P15, P16 the extra state's.) -/
theorem body_eq (P0 P1 : Vec Ideal S256x1024 .f32) (P2 P3 : Vec Ideal S1024x1024 .bf16) (P4 : Vec Ideal S1x1024 .f32)
    (P5 P6 P7 : Vec Ideal S1024x1024 .bf16) (P8 : Vec Ideal S1x1024 .f32) (P9 : Vec Ideal S1024x1024 .bf16)
    (P10 : Vec Ideal S1x1024 .f32) (P11 P12 : Vec Ideal S1024x1024 .bf16) (P13 : Vec Ideal S1x1024 .f32)
    (P14 P15 : Vec Ideal S1024x1024 .bf16) (P16 : Vec Ideal S1x1024 .f32) (p : Fin 256) (q : Fin 1024) :
    E17 P0 P1 P2 P3 P4 P5 P6 P7 P8 P9 P10 P11 P12 P13 P14 P15 P16 (ix2 p q)
      = cellRow (rowOf P0 p) (rowOf P1 p) (matOf P6) (matOf P7) (matOf P2) (matOf P3) (matOf P5) (matOf P9)
          (matOf P11) (matOf P12) (matOf P14) (matOf P15) (biasOf P8) (biasOf P4) (biasOf P10) (biasOf P13) (biasOf P16) q := by
  unfold E17
  simp only [ix17_0_eq, ix17_1_eq, ix17_2_eq, ix17_3_eq, ix17_4_eq, ix17_5_eq, ix17_6_eq,
    pay4_apply, pay7_apply, pay5_apply, pay6_apply, pay8_apply, pay9_apply, truncf_apply]
  rfl

end Cert.GatedCell.Body

end
-- ==== Proof.HostArrays.lean ====
/-
  The arrays the kernel's region finds, in terms of the launch arguments.

  Before the region @main transposes each square weight, cuts each wide weight into its low and
  high halves of columns and transposes those, and lays each bias vector out as a one-row matrix
  (the narrowing to bf16 is the identity on extended reals). So entry (k, j) of a staged weight is
  entry (j, k) of the argument — in the low or high half of its columns for a wide one — and
  entry (0, j) of a staged bias is the bias at j.
-/
import proofs.«133097_j42683384987795_1_alg».proof.Proof.Gen.KernelIdeal.Frame
import proofs.«133097_j42683384987795_1_alg».proof.Proof.CellSpec
import Idealize.ShloMosaic.Lib.StableHlo.Run
import Idealize.ShloMosaic.Lib.ValueIdx
import Idealize.ShloMosaic.Lib.Pipeline.Value

noncomputable section

namespace Cert.GatedCell.Launch

open Cert.KernelIdeal Cert.KernelIdeal.Gen Idealize.ShloMosaic Idealize.ShloMosaic.TcCoe Idealize.SL.Sem
open Idealize.ShloMosaic.StableHlo Idealize.ShloMosaic.ValueIdx Cert.GatedCell

/-- A transposed square weight at (k, j). -/
theorem wT_at (w : S1024x1024.Idx → EReal) (k j : Fin 1024) :
    truncf (F := Ideal) .bf16 (transpose S1024x1024 [1, 0] w transposes_S1024x1024_S1024x1024_1_0) bitsLt_bf16_f32 (ix2 k j) = w (ix2 j k) :=
  transpose_apply [1, 0] w transposes_S1024x1024_S1024x1024_1_0 (ix2 k j) (ix2 j k) (fun b => match b with | ⟨0, _⟩ => rfl | ⟨1, _⟩ => rfl)

/-- The transposed low half of a wide weight at (k, j). -/
theorem loT_at (w : S1024x2048.Idx → EReal) (k j : Fin 1024) :
    truncf (F := Ideal) .bf16 (transpose S1024x1024 [1, 0] (extractStridedSlice S1024x1024 ![0, 0] w slices_S1024x2048_S1024x1024_0_0) transposes_S1024x1024_S1024x1024_1_0) bitsLt_bf16_f32 (ix2 k j)
      = w (ix2 j (lo k)) :=
  (transpose_apply [1, 0] _ transposes_S1024x1024_S1024x1024_1_0 (ix2 k j) (ix2 j k) (fun b => match b with | ⟨0, _⟩ => rfl | ⟨1, _⟩ => rfl)).trans
    (extractStridedSlice_apply ![0, 0] w slices_S1024x2048_S1024x1024_0_0 (ix2 j k) (ix2 j (lo k)) (fun a => match a with
      | ⟨0, _⟩ => by show j.val = 0 + j.val; omega
      | ⟨1, _⟩ => by show k.val = 0 + k.val; omega))

/-- The transposed high half of a wide weight at (k, j). -/
theorem hiT_at (w : S1024x2048.Idx → EReal) (k j : Fin 1024) :
    truncf (F := Ideal) .bf16 (transpose S1024x1024 [1, 0] (extractStridedSlice S1024x1024 ![0, 1024] w slices_S1024x2048_S1024x1024_0_1024) transposes_S1024x1024_S1024x1024_1_0) bitsLt_bf16_f32 (ix2 k j)
      = w (ix2 j (hi k)) :=
  (transpose_apply [1, 0] _ transposes_S1024x1024_S1024x1024_1_0 (ix2 k j) (ix2 j k) (fun b => match b with | ⟨0, _⟩ => rfl | ⟨1, _⟩ => rfl)).trans
    (extractStridedSlice_apply ![0, 1024] w slices_S1024x2048_S1024x1024_0_1024 (ix2 j k) (ix2 j (hi k)) (fun a => match a with
      | ⟨0, _⟩ => by show j.val = 0 + j.val; omega
      | ⟨1, _⟩ => by show 1024 + k.val = 1024 + k.val; rfl))

/-- A bias vector laid out as one row, at (0, j). -/
theorem biasRow_at (v : S1024.Idx → EReal) (j : Fin 1024) :
    shapeCast S1x1024 v shapeCasts_S1024_S1x1024 (ix2 0 j) = v (ix1 j) :=
  shapeCast_apply v shapeCasts_S1024_S1x1024 (ix2 0 j) (ix1 j) (by
    rw [Shape.rowMajor_val_one, Shape.rowMajor_val_two]
    show j.val = 0 * 1024 + j.val
    omega)

variable (m : (ℓ : Loc nD τ sig) → Buf (Elt Ideal) ℓ)

/-- The staged weights of the reset gate, the update gate and the candidate: the arguments' transposes. -/
theorem arr_v1 (c : Dev nD) : (V m c main_v1 : S1024x1024.Idx → EReal)
    = truncf (F := Ideal) .bf16 (transpose S1024x1024 [1, 0] (m ((c : Thread nD τ).loc main_arg2)) transposes_S1024x1024_S1024x1024_1_0) bitsLt_bf16_f32 := by
  dsimp only [V, hostOps0]; after_results
theorem arr_v3 (c : Dev nD) : (V m c main_v3 : S1024x1024.Idx → EReal)
    = truncf (F := Ideal) .bf16 (transpose S1024x1024 [1, 0] (m ((c : Thread nD τ).loc main_arg3)) transposes_S1024x1024_S1024x1024_1_0) bitsLt_bf16_f32 := by
  dsimp only [V, hostOps0]; after_results
theorem arr_v5 (c : Dev nD) : (V m c main_v5 : S1024x1024.Idx → EReal)
    = truncf (F := Ideal) .bf16 (transpose S1024x1024 [1, 0] (m ((c : Thread nD τ).loc main_arg5)) transposes_S1024x1024_S1024x1024_1_0) bitsLt_bf16_f32 := by
  dsimp only [V, hostOps0]; after_results
theorem arr_v7 (c : Dev nD) : (V m c main_v7 : S1024x1024.Idx → EReal)
    = truncf (F := Ideal) .bf16 (transpose S1024x1024 [1, 0] (m ((c : Thread nD τ).loc main_arg6)) transposes_S1024x1024_S1024x1024_1_0) bitsLt_bf16_f32 := by
  dsimp only [V, hostOps0]; after_results
theorem arr_v9 (c : Dev nD) : (V m c main_v9 : S1024x1024.Idx → EReal)
    = truncf (F := Ideal) .bf16 (transpose S1024x1024 [1, 0] (m ((c : Thread nD τ).loc main_arg8)) transposes_S1024x1024_S1024x1024_1_0) bitsLt_bf16_f32 := by
  dsimp only [V, hostOps0]; after_results
theorem arr_v11 (c : Dev nD) : (V m c main_v11 : S1024x1024.Idx → EReal)
    = truncf (F := Ideal) .bf16 (transpose S1024x1024 [1, 0] (m ((c : Thread nD τ).loc main_arg9)) transposes_S1024x1024_S1024x1024_1_0) bitsLt_bf16_f32 := by
  dsimp only [V, hostOps0]; after_results

/-- The staged halves of the attention scores' wide weight and of the extra state's. -/
theorem arr_v15 (c : Dev nD) : (V m c main_v15 : S1024x1024.Idx → EReal)
    = truncf (F := Ideal) .bf16 (transpose S1024x1024 [1, 0] (extractStridedSlice S1024x1024 ![0, 0] (m ((c : Thread nD τ).loc main_arg11)) slices_S1024x2048_S1024x1024_0_0) transposes_S1024x1024_S1024x1024_1_0) bitsLt_bf16_f32 := by
  dsimp only [V, hostOps0]; after_results
theorem arr_v17 (c : Dev nD) : (V m c main_v17 : S1024x1024.Idx → EReal)
    = truncf (F := Ideal) .bf16 (transpose S1024x1024 [1, 0] (extractStridedSlice S1024x1024 ![0, 1024] (m ((c : Thread nD τ).loc main_arg11)) slices_S1024x2048_S1024x1024_0_1024) transposes_S1024x1024_S1024x1024_1_0) bitsLt_bf16_f32 := by
  dsimp only [V, hostOps0]; after_results
theorem arr_v21 (c : Dev nD) : (V m c main_v21 : S1024x1024.Idx → EReal)
    = truncf (F := Ideal) .bf16 (transpose S1024x1024 [1, 0] (extractStridedSlice S1024x1024 ![0, 0] (m ((c : Thread nD τ).loc main_arg13)) slices_S1024x2048_S1024x1024_0_0) transposes_S1024x1024_S1024x1024_1_0) bitsLt_bf16_f32 := by
  dsimp only [V, hostOps0]; after_results
theorem arr_v23 (c : Dev nD) : (V m c main_v23 : S1024x1024.Idx → EReal)
    = truncf (F := Ideal) .bf16 (transpose S1024x1024 [1, 0] (extractStridedSlice S1024x1024 ![0, 1024] (m ((c : Thread nD τ).loc main_arg13)) slices_S1024x2048_S1024x1024_0_1024) transposes_S1024x1024_S1024x1024_1_0) bitsLt_bf16_f32 := by
  dsimp only [V, hostOps0]; after_results

/-- The staged bias rows. -/
theorem arr_v24 (c : Dev nD) : (V m c main_v24 : S1x1024.Idx → EReal)
    = shapeCast S1x1024 (m ((c : Thread nD τ).loc main_arg4)) shapeCasts_S1024_S1x1024 := by
  dsimp only [V, hostOps0]; after_results; rfl
theorem arr_v25 (c : Dev nD) : (V m c main_v25 : S1x1024.Idx → EReal)
    = shapeCast S1x1024 (m ((c : Thread nD τ).loc main_arg7)) shapeCasts_S1024_S1x1024 := by
  dsimp only [V, hostOps0]; after_results; rfl
theorem arr_v26 (c : Dev nD) : (V m c main_v26 : S1x1024.Idx → EReal)
    = shapeCast S1x1024 (m ((c : Thread nD τ).loc main_arg10)) shapeCasts_S1024_S1x1024 := by
  dsimp only [V, hostOps0]; after_results; rfl
theorem arr_v27 (c : Dev nD) : (V m c main_v27 : S1x1024.Idx → EReal)
    = shapeCast S1x1024 (m ((c : Thread nD τ).loc main_arg12)) shapeCasts_S1024_S1x1024 := by
  dsimp only [V, hostOps0]; after_results; rfl
theorem arr_v28 (c : Dev nD) : (V m c main_v28 : S1x1024.Idx → EReal)
    = shapeCast S1x1024 (m ((c : Thread nD τ).loc main_arg14)) shapeCasts_S1024_S1x1024 := by
  dsimp only [V, hostOps0]; after_results; rfl

end Cert.GatedCell.Launch

end
-- ==== Proof.Blocks.lean ====
/-
  From the body's blocks to the result array.

  Grid point t stages rows 256·t … 256·t + 255 of `x` and of the state, and every weight and bias
  whole; what it writes back is rows 256·t … 256·t + 255 of the result. Entry (p, q) of the block
  it stores is the cell applied to row p of the two staged blocks, that is to row 256·t + p of the
  arguments: so each point writes its block of ONE array, the cell on the whole arguments, and the
  32 blocks tile the 8192 rows.
-/
import proofs.«133097_j42683384987795_1_alg».proof.Proof.BodyCell
import proofs.«133097_j42683384987795_1_alg».proof.Proof.HostArrays

noncomputable section

open scoped BigOperators

namespace Cert.GatedCell.Launch

open Cert.KernelIdeal Cert.KernelIdeal.Gen Cert.KernelIdeal.Value Idealize.ShloMosaic Idealize.ShloMosaic.TcCoe Idealize.SL.Sem
open Idealize.ShloMosaic.ValueIdx Cert.GatedCell Cert.GatedCell.Body
open Idealize.ShloMosaic.Pipeline (Dat)

theorem hz : (![0, 0] : Fin 2 → Nat) = fun _ => 0 := funext fun a => by fin_cases a <;> rfl

/-- What the body leaves in the output block, at entry (p, q): the cell on row p of the staged blocks. (Windows
    0, 1 stage `x` and the state; 2, 3, 4 the reset gate's weights and bias; 5, 6, 7 the update gate's; 8, 9, 10 the
    candidate's; 11, 12, 13 the attention scores'; 14, 15, 16 the extra state's.) -/
theorem out_block (X0 X1 : Vec Ideal S256x1024 .f32) (X2 X3 : Vec Ideal S1024x1024 .bf16) (X4 : Vec Ideal S1x1024 .f32) (X5 X6 : Vec Ideal S1024x1024 .bf16) (X7 : Vec Ideal S1x1024 .f32) (X8 X9 : Vec Ideal S1024x1024 .bf16) (X10 : Vec Ideal S1x1024 .f32) (X11 X12 : Vec Ideal S1024x1024 .bf16) (X13 : Vec Ideal S1x1024 .f32) (X14 X15 : Vec Ideal S1024x1024 .bf16) (X16 : Vec Ideal S1x1024 .f32) (p : Fin 256) (q : Fin 1024) :
    out0_17 X0 X1 X2 X3 X4 X5 X6 X7 X8 X9 X10 X11 X12 X13 X14 X15 X16 (ix2 p q)
      = cellRow (rowOf X0 p) (rowOf X1 p) (matOf X2) (matOf X3) (matOf X5) (matOf X6) (matOf X8) (matOf X9)
          (matOf X11) (matOf X12) (matOf X14) (matOf X15) (biasOf X4) (biasOf X7) (biasOf X10) (biasOf X13) (biasOf X16) q := by
  unfold out0_17
  rw [canon17_eq, body_eq]
  simp only [View.ld_unit_zero (S := S256x1024) hz, View.ld_unit_zero (S := S1024x1024) hz, View.ld_unit_zero (S := S1x1024) hz]

/-- The same in terms of whole arrays the staged blocks are read from: row p of the two staged blocks row B of
    `x` and of the state, every staged weight the transpose of an array's (half of) columns, every staged bias row an
    array's entries. -/
theorem cell_of_block (X0 X1 : Vec Ideal S256x1024 .f32) (X2 X3 : Vec Ideal S1024x1024 .bf16) (X4 : Vec Ideal S1x1024 .f32) (X5 X6 : Vec Ideal S1024x1024 .bf16) (X7 : Vec Ideal S1x1024 .f32) (X8 X9 : Vec Ideal S1024x1024 .bf16) (X10 : Vec Ideal S1x1024 .f32) (X11 X12 : Vec Ideal S1024x1024 .bf16) (X13 : Vec Ideal S1x1024 .f32) (X14 X15 : Vec Ideal S1024x1024 .bf16) (X16 : Vec Ideal S1x1024 .f32)
    (x h : BatchArr) (wxr whr wxz whz wxh whh : SquareArr) (wc wa : WideArr) (br bz bh bc ba : FeatArr)
    (p : Fin 256) (q : Fin 1024) (B : Fin 8192)
    (h0 : ∀ k, X0 (ix2 p k) = x (ix2 B k)) (h1 : ∀ k, X1 (ix2 p k) = h (ix2 B k))
    (h2 : ∀ j k, X2 (ix2 k j) = wxr (ix2 j k)) (h3 : ∀ j k, X3 (ix2 k j) = whr (ix2 j k)) (h4 : ∀ j, X4 (ix2 0 j) = br (ix1 j))
    (h5 : ∀ j k, X5 (ix2 k j) = wxz (ix2 j k)) (h6 : ∀ j k, X6 (ix2 k j) = whz (ix2 j k)) (h7 : ∀ j, X7 (ix2 0 j) = bz (ix1 j))
    (h8 : ∀ j k, X8 (ix2 k j) = wxh (ix2 j k)) (h9 : ∀ j k, X9 (ix2 k j) = whh (ix2 j k)) (h10 : ∀ j, X10 (ix2 0 j) = bh (ix1 j))
    (h11 : ∀ j k, X11 (ix2 k j) = wc (ix2 j (lo k))) (h12 : ∀ j k, X12 (ix2 k j) = wc (ix2 j (hi k))) (h13 : ∀ j, X13 (ix2 0 j) = bc (ix1 j))
    (h14 : ∀ j k, X14 (ix2 k j) = wa (ix2 j (lo k))) (h15 : ∀ j k, X15 (ix2 k j) = wa (ix2 j (hi k))) (h16 : ∀ j, X16 (ix2 0 j) = ba (ix1 j)) :
    out0_17 X0 X1 X2 X3 X4 X5 X6 X7 X8 X9 X10 X11 X12 X13 X14 X15 X16 (ix2 p q) = cellAt x h wxr whr wxz whz wxh whh wc wa br bz bh bc ba B q := by
  rw [out_block]
  unfold cellAt
  have e0 : rowOf X0 p = fun k => x (ix2 B k) := funext h0
  have e1 : rowOf X1 p = fun k => h (ix2 B k) := funext h1
  have e2 : matOf X2 = fun j k => wxr (ix2 j k) := funext fun j => funext fun k => h2 j k
  have e3 : matOf X3 = fun j k => whr (ix2 j k) := funext fun j => funext fun k => h3 j k
  have e4 : biasOf X4 = fun j => br (ix1 j) := funext h4
  have e5 : matOf X5 = fun j k => wxz (ix2 j k) := funext fun j => funext fun k => h5 j k
  have e6 : matOf X6 = fun j k => whz (ix2 j k) := funext fun j => funext fun k => h6 j k
  have e7 : biasOf X7 = fun j => bz (ix1 j) := funext h7
  have e8 : matOf X8 = fun j k => wxh (ix2 j k) := funext fun j => funext fun k => h8 j k
  have e9 : matOf X9 = fun j k => whh (ix2 j k) := funext fun j => funext fun k => h9 j k
  have e10 : biasOf X10 = fun j => bh (ix1 j) := funext h10
  have e11 : matOf X11 = fun j k => wc (ix2 j (lo k)) := funext fun j => funext fun k => h11 j k
  have e12 : matOf X12 = fun j k => wc (ix2 j (hi k)) := funext fun j => funext fun k => h12 j k
  have e13 : biasOf X13 = fun j => bc (ix1 j) := funext h13
  have e14 : matOf X14 = fun j k => wa (ix2 j (lo k)) := funext fun j => funext fun k => h14 j k
  have e15 : matOf X15 = fun j k => wa (ix2 j (hi k)) := funext fun j => funext fun k => h15 j k
  have e16 : biasOf X16 = fun j => ba (ix1 j) := funext h16
  rw [e0, e1, e2, e3, e4, e5, e6, e7, e8, e9, e10, e11, e12, e13, e14, e15, e16]

/-- The index maps over the 32 points: the two batch-tiled inputs move with the output's row block, and nothing
    moves along the features. -/
theorem idx_rows : ∀ t : Fin cfg0.N,
    win0_0.index t (0 : Fin 2) = win0_17.index t (0 : Fin 2) ∧ win0_0.index t (1 : Fin 2) = 0
    ∧ win0_1.index t (0 : Fin 2) = win0_17.index t (0 : Fin 2) ∧ win0_1.index t (1 : Fin 2) = 0
    ∧ win0_17.index t (1 : Fin 2) = 0 ∧ win0_17.index t (0 : Fin 2) < 32 :=
  (by decide +kernel : ∀ t : Fin grid0.N, _)

/-- Every weight and bias window sits at block (0, 0) at every point. -/
theorem idx_fixed : ∀ t : Fin cfg0.N, ∀ a : Fin 2, win0_2.index t a = 0 ∧ win0_3.index t a = 0 ∧ win0_4.index t a = 0 ∧ win0_5.index t a = 0 ∧ win0_6.index t a = 0 ∧ win0_7.index t a = 0 ∧ win0_8.index t a = 0 ∧ win0_9.index t a = 0 ∧ win0_10.index t a = 0 ∧ win0_11.index t a = 0 ∧ win0_12.index t a = 0 ∧ win0_13.index t a = 0 ∧ win0_14.index t a = 0 ∧ win0_15.index t a = 0 ∧ win0_16.index t a = 0 :=
  (by decide +kernel : ∀ t : Fin grid0.N, ∀ a : Fin 2, _)

/-- Every one of the 32 row blocks is some point's. -/
theorem idx_onto : ∀ r : Fin 32, ∃ t : Fin cfg0.N, win0_17.index t = ![r.val, 0] :=
  (by decide +kernel : ∀ r : Fin 32, ∃ t : Fin grid0.N, win0_17.index t = ![r.val, 0])

variable (m : (ℓ : Loc nD τ sig) → Buf (Elt Ideal) ℓ) (ρ : Dev nD → PrngReg)

/-- A weight or bias window's block is its whole array, at every point. -/
theorem blk2 (c : Dev nD) (t : Fin cfg0.N) : (iblk m c 2 t : Vec Ideal S1024x1024 .bf16) = V m c main_v1 := by
  have hz' : (fun a => win0_2.index t a * main_v1.ty.shape.size a) = fun _ => 0 := funext fun a => by rw [(idx_fixed t a).1, Nat.zero_mul]
  exact Memref.read_access_unit_zero (Elt Ideal) main_v1 hz' (fun a => by rw [congrFun hz' a]; simp) (V m c main_v1)
theorem blk3 (c : Dev nD) (t : Fin cfg0.N) : (iblk m c 3 t : Vec Ideal S1024x1024 .bf16) = V m c main_v3 := by
  have hz' : (fun a => win0_3.index t a * main_v3.ty.shape.size a) = fun _ => 0 := funext fun a => by rw [(idx_fixed t a).2.1, Nat.zero_mul]
  exact Memref.read_access_unit_zero (Elt Ideal) main_v3 hz' (fun a => by rw [congrFun hz' a]; simp) (V m c main_v3)
theorem blk4 (c : Dev nD) (t : Fin cfg0.N) : (iblk m c 4 t : Vec Ideal S1x1024 .f32) = V m c main_v24 := by
  have hz' : (fun a => win0_4.index t a * main_v24.ty.shape.size a) = fun _ => 0 := funext fun a => by rw [(idx_fixed t a).2.2.1, Nat.zero_mul]
  exact Memref.read_access_unit_zero (Elt Ideal) main_v24 hz' (fun a => by rw [congrFun hz' a]; simp) (V m c main_v24)
theorem blk5 (c : Dev nD) (t : Fin cfg0.N) : (iblk m c 5 t : Vec Ideal S1024x1024 .bf16) = V m c main_v5 := by
  have hz' : (fun a => win0_5.index t a * main_v5.ty.shape.size a) = fun _ => 0 := funext fun a => by rw [(idx_fixed t a).2.2.2.1, Nat.zero_mul]
  exact Memref.read_access_unit_zero (Elt Ideal) main_v5 hz' (fun a => by rw [congrFun hz' a]; simp) (V m c main_v5)
theorem blk6 (c : Dev nD) (t : Fin cfg0.N) : (iblk m c 6 t : Vec Ideal S1024x1024 .bf16) = V m c main_v7 := by
  have hz' : (fun a => win0_6.index t a * main_v7.ty.shape.size a) = fun _ => 0 := funext fun a => by rw [(idx_fixed t a).2.2.2.2.1, Nat.zero_mul]
  exact Memref.read_access_unit_zero (Elt Ideal) main_v7 hz' (fun a => by rw [congrFun hz' a]; simp) (V m c main_v7)
theorem blk7 (c : Dev nD) (t : Fin cfg0.N) : (iblk m c 7 t : Vec Ideal S1x1024 .f32) = V m c main_v25 := by
  have hz' : (fun a => win0_7.index t a * main_v25.ty.shape.size a) = fun _ => 0 := funext fun a => by rw [(idx_fixed t a).2.2.2.2.2.1, Nat.zero_mul]
  exact Memref.read_access_unit_zero (Elt Ideal) main_v25 hz' (fun a => by rw [congrFun hz' a]; simp) (V m c main_v25)
theorem blk8 (c : Dev nD) (t : Fin cfg0.N) : (iblk m c 8 t : Vec Ideal S1024x1024 .bf16) = V m c main_v9 := by
  have hz' : (fun a => win0_8.index t a * main_v9.ty.shape.size a) = fun _ => 0 := funext fun a => by rw [(idx_fixed t a).2.2.2.2.2.2.1, Nat.zero_mul]
  exact Memref.read_access_unit_zero (Elt Ideal) main_v9 hz' (fun a => by rw [congrFun hz' a]; simp) (V m c main_v9)
theorem blk9 (c : Dev nD) (t : Fin cfg0.N) : (iblk m c 9 t : Vec Ideal S1024x1024 .bf16) = V m c main_v11 := by
  have hz' : (fun a => win0_9.index t a * main_v11.ty.shape.size a) = fun _ => 0 := funext fun a => by rw [(idx_fixed t a).2.2.2.2.2.2.2.1, Nat.zero_mul]
  exact Memref.read_access_unit_zero (Elt Ideal) main_v11 hz' (fun a => by rw [congrFun hz' a]; simp) (V m c main_v11)
theorem blk10 (c : Dev nD) (t : Fin cfg0.N) : (iblk m c 10 t : Vec Ideal S1x1024 .f32) = V m c main_v26 := by
  have hz' : (fun a => win0_10.index t a * main_v26.ty.shape.size a) = fun _ => 0 := funext fun a => by rw [(idx_fixed t a).2.2.2.2.2.2.2.2.1, Nat.zero_mul]
  exact Memref.read_access_unit_zero (Elt Ideal) main_v26 hz' (fun a => by rw [congrFun hz' a]; simp) (V m c main_v26)
theorem blk11 (c : Dev nD) (t : Fin cfg0.N) : (iblk m c 11 t : Vec Ideal S1024x1024 .bf16) = V m c main_v15 := by
  have hz' : (fun a => win0_11.index t a * main_v15.ty.shape.size a) = fun _ => 0 := funext fun a => by rw [(idx_fixed t a).2.2.2.2.2.2.2.2.2.1, Nat.zero_mul]
  exact Memref.read_access_unit_zero (Elt Ideal) main_v15 hz' (fun a => by rw [congrFun hz' a]; simp) (V m c main_v15)
theorem blk12 (c : Dev nD) (t : Fin cfg0.N) : (iblk m c 12 t : Vec Ideal S1024x1024 .bf16) = V m c main_v17 := by
  have hz' : (fun a => win0_12.index t a * main_v17.ty.shape.size a) = fun _ => 0 := funext fun a => by rw [(idx_fixed t a).2.2.2.2.2.2.2.2.2.2.1, Nat.zero_mul]
  exact Memref.read_access_unit_zero (Elt Ideal) main_v17 hz' (fun a => by rw [congrFun hz' a]; simp) (V m c main_v17)
theorem blk13 (c : Dev nD) (t : Fin cfg0.N) : (iblk m c 13 t : Vec Ideal S1x1024 .f32) = V m c main_v27 := by
  have hz' : (fun a => win0_13.index t a * main_v27.ty.shape.size a) = fun _ => 0 := funext fun a => by rw [(idx_fixed t a).2.2.2.2.2.2.2.2.2.2.2.1, Nat.zero_mul]
  exact Memref.read_access_unit_zero (Elt Ideal) main_v27 hz' (fun a => by rw [congrFun hz' a]; simp) (V m c main_v27)
theorem blk14 (c : Dev nD) (t : Fin cfg0.N) : (iblk m c 14 t : Vec Ideal S1024x1024 .bf16) = V m c main_v21 := by
  have hz' : (fun a => win0_14.index t a * main_v21.ty.shape.size a) = fun _ => 0 := funext fun a => by rw [(idx_fixed t a).2.2.2.2.2.2.2.2.2.2.2.2.1, Nat.zero_mul]
  exact Memref.read_access_unit_zero (Elt Ideal) main_v21 hz' (fun a => by rw [congrFun hz' a]; simp) (V m c main_v21)
theorem blk15 (c : Dev nD) (t : Fin cfg0.N) : (iblk m c 15 t : Vec Ideal S1024x1024 .bf16) = V m c main_v23 := by
  have hz' : (fun a => win0_15.index t a * main_v23.ty.shape.size a) = fun _ => 0 := funext fun a => by rw [(idx_fixed t a).2.2.2.2.2.2.2.2.2.2.2.2.2.1, Nat.zero_mul]
  exact Memref.read_access_unit_zero (Elt Ideal) main_v23 hz' (fun a => by rw [congrFun hz' a]; simp) (V m c main_v23)
theorem blk16 (c : Dev nD) (t : Fin cfg0.N) : (iblk m c 16 t : Vec Ideal S1x1024 .f32) = V m c main_v28 := by
  have hz' : (fun a => win0_16.index t a * main_v28.ty.shape.size a) = fun _ => 0 := funext fun a => by rw [(idx_fixed t a).2.2.2.2.2.2.2.2.2.2.2.2.2.2, Nat.zero_mul]
  exact Memref.read_access_unit_zero (Elt Ideal) main_v28 hz' (fun a => by rw [congrFun hz' a]; simp) (V m c main_v28)

/-- The staged block of `x` at point t, row p: row B of the argument, B the block's first row plus p. -/
theorem rows0 (c : Dev nD) (t : Fin cfg0.N) (p : Fin 256) (k : Fin 1024) (B : Fin 8192)
    (hB : B.val = win0_17.index t (0 : Fin 2) * 256 + p.val) :
    (iblk m c 0 t : Vec Ideal S256x1024 .f32) (ix2 p k) = m ((c : Thread nD τ).loc main_arg0) (ix2 B k) := by
  obtain ⟨e0, e1, -, -, -, -⟩ := idx_rows t
  unfold iblk
  rw [View.read_apply]
  show V m c main_arg0 _ = _
  refine (congrFun (V_main_arg0 m c) _).trans (congrArg (m ((c : Thread nD τ).loc main_arg0)) (funext fun a => Fin.ext ?_))
  match a with
  | ⟨0, _⟩ => show win0_0.index t (0 : Fin 2) * 256 + 1 * p.val = B.val; rw [e0, hB]; omega
  | ⟨1, _⟩ => show win0_0.index t (1 : Fin 2) * 1024 + 1 * k.val = k.val; rw [e1]; omega

/-- The staged block of the state likewise. -/
theorem rows1 (c : Dev nD) (t : Fin cfg0.N) (p : Fin 256) (k : Fin 1024) (B : Fin 8192)
    (hB : B.val = win0_17.index t (0 : Fin 2) * 256 + p.val) :
    (iblk m c 1 t : Vec Ideal S256x1024 .f32) (ix2 p k) = m ((c : Thread nD τ).loc main_arg1) (ix2 B k) := by
  obtain ⟨-, -, e0, e1, -, -⟩ := idx_rows t
  unfold iblk
  rw [View.read_apply]
  show V m c main_arg1 _ = _
  refine (congrFun (V_main_arg1 m c) _).trans (congrArg (m ((c : Thread nD τ).loc main_arg1)) (funext fun a => Fin.ext ?_))
  match a with
  | ⟨0, _⟩ => show win0_1.index t (0 : Fin 2) * 256 + 1 * p.val = B.val; rw [e0, hB]; omega
  | ⟨1, _⟩ => show win0_1.index t (1 : Fin 2) * 1024 + 1 * k.val = k.val; rw [e1]; omega

/-- The result array: the cell on the launch arguments. -/
abbrev result (c : Dev nD) : BatchArr := cellArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg8)) (m ((c : Thread nD τ).loc main_arg9)) (m ((c : Thread nD τ).loc main_arg11)) (m ((c : Thread nD τ).loc main_arg13)) (m ((c : Thread nD τ).loc main_arg4)) (m ((c : Thread nD τ).loc main_arg7)) (m ((c : Thread nD τ).loc main_arg10)) (m ((c : Thread nD τ).loc main_arg12)) (m ((c : Thread nD τ).loc main_arg14))

/-- What point t's body leaves at entry (p, q) of its output block is the result at row B, column q. -/
theorem stored_at (c : Dev nD) (t : Fin cfg0.N) (p : Fin 256) (q : Fin 1024) (B : Fin 8192)
    (hB : B.val = win0_17.index t (0 : Fin 2) * 256 + p.val) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 p q) = result m c (ix2 B q) :=
  cell_of_block (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg8)) (m ((c : Thread nD τ).loc main_arg9)) (m ((c : Thread nD τ).loc main_arg11)) (m ((c : Thread nD τ).loc main_arg13)) (m ((c : Thread nD τ).loc main_arg4)) (m ((c : Thread nD τ).loc main_arg7)) (m ((c : Thread nD τ).loc main_arg10)) (m ((c : Thread nD τ).loc main_arg12)) (m ((c : Thread nD τ).loc main_arg14)) p q B
    (fun k => rows0 m c t p k B hB) (fun k => rows1 m c t p k B hB)
    (fun j k => (congrFun (blk2 m c t) (ix2 k j)).trans ((congrFun (arr_v1 m c) (ix2 k j)).trans (wT_at _ k j)))
    (fun j k => (congrFun (blk3 m c t) (ix2 k j)).trans ((congrFun (arr_v3 m c) (ix2 k j)).trans (wT_at _ k j)))
    (fun j => (congrFun (blk4 m c t) (ix2 0 j)).trans ((congrFun (arr_v24 m c) (ix2 0 j)).trans (biasRow_at _ j)))
    (fun j k => (congrFun (blk5 m c t) (ix2 k j)).trans ((congrFun (arr_v5 m c) (ix2 k j)).trans (wT_at _ k j)))
    (fun j k => (congrFun (blk6 m c t) (ix2 k j)).trans ((congrFun (arr_v7 m c) (ix2 k j)).trans (wT_at _ k j)))
    (fun j => (congrFun (blk7 m c t) (ix2 0 j)).trans ((congrFun (arr_v25 m c) (ix2 0 j)).trans (biasRow_at _ j)))
    (fun j k => (congrFun (blk8 m c t) (ix2 k j)).trans ((congrFun (arr_v9 m c) (ix2 k j)).trans (wT_at _ k j)))
    (fun j k => (congrFun (blk9 m c t) (ix2 k j)).trans ((congrFun (arr_v11 m c) (ix2 k j)).trans (wT_at _ k j)))
    (fun j => (congrFun (blk10 m c t) (ix2 0 j)).trans ((congrFun (arr_v26 m c) (ix2 0 j)).trans (biasRow_at _ j)))
    (fun j k => (congrFun (blk11 m c t) (ix2 k j)).trans ((congrFun (arr_v15 m c) (ix2 k j)).trans (loT_at _ k j)))
    (fun j k => (congrFun (blk12 m c t) (ix2 k j)).trans ((congrFun (arr_v17 m c) (ix2 k j)).trans (hiT_at _ k j)))
    (fun j => (congrFun (blk13 m c t) (ix2 0 j)).trans ((congrFun (arr_v27 m c) (ix2 0 j)).trans (biasRow_at _ j)))
    (fun j k => (congrFun (blk14 m c t) (ix2 k j)).trans ((congrFun (arr_v21 m c) (ix2 k j)).trans (loT_at _ k j)))
    (fun j k => (congrFun (blk15 m c t) (ix2 k j)).trans ((congrFun (arr_v23 m c) (ix2 k j)).trans (hiT_at _ k j)))
    (fun j => (congrFun (blk16 m c t) (ix2 0 j)).trans ((congrFun (arr_v28 m c) (ix2 0 j)).trans (biasRow_at _ j)))
/-- WHAT POINT t WRITES BACK is block t of the result array. -/
theorem flushed_eq (c : Dev nD) (t : Fin cfg0.N) :
    (dats m 0 c).flushed 17 t = ((cfg0.win 17).blk t).view.read (Elt Ideal) (result m c) := by
  rw [Value.flushed17]
  obtain ⟨-, -, -, -, e4, e5⟩ := idx_rows t
  have key : ∀ (p : Fin 256) (q : Fin 1024),
      (cfg0.win 17).cut (grid0.coords t) (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) (ix2 p q)
        = ((cfg0.win 17).blk t).view.read (Elt Ideal) (result m c) (ix2 p q) := fun p q => by
    rw [View.read_apply]
    show out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 p q) = result m c (((cfg0.win 17).blk t).view.emb (ix2 p q))
    have hp : p.val < 256 := p.isLt
    have hi : ((cfg0.win 17).blk t).view.emb (ix2 p q)
        = ix2 (⟨win0_17.index t (0 : Fin 2) * 256 + p.val, by omega⟩ : Fin 8192) q := funext fun a => Fin.ext (by
      match a with
      | ⟨0, _⟩ => show win0_17.index t (0 : Fin 2) * 256 + 1 * p.val = win0_17.index t (0 : Fin 2) * 256 + p.val; omega
      | ⟨1, _⟩ => show win0_17.index t (1 : Fin 2) * 1024 + 1 * q.val = q.val; rw [e4]; omega)
    rw [hi]
    exact stored_at m c t p q _ rfl
  refine funext fun y => ?_
  have hy : y = ix2 (⟨(y 0).val, (y 0).isLt⟩ : Fin 256) (⟨(y 1).val, (y 1).isLt⟩ : Fin 1024) :=
    funext fun a => by match a with | ⟨0, _⟩ => rfl | ⟨1, _⟩ => rfl
  rw [hy]
  exact key _ _

/-- An index of the result array is in point t's block iff each coordinate is in the block's range on its axis. -/
theorem mem_blk (t : Fin cfg0.N) (i : S8192x1024.Idx) :
    i ∈ ((cfg0.win 17).blk t).view.set ↔ ∀ a : Fin 2, win0_17.index t a * S256x1024.size a ≤ (i a).val
      ∧ (i a).val < win0_17.index t a * S256x1024.size a + S256x1024.size a := by
  show i ∈ ((View.whole main_v29).slice (win0_17.rect t)).set ↔ _
  rw [View.set_slice_whole, Rect.mem_set_unit]
  exact Iff.rfl

/-- The 32 row blocks tile the 8192 rows: every index is in some writing point's block. -/
theorem covered (i : S8192x1024.Idx) :
    ∃ t : Fin cfg0.N, (cfg0.win 17).flush t = true ∧ i ∈ ((cfg0.win 17).blk t).view.set := by
  have hi0 : (i 0).val < 8192 := (i 0).isLt
  have hi1 : (i 1).val < 1024 := (i 1).isLt
  obtain ⟨t, ht⟩ := idx_onto ⟨(i 0).val / 256, by omega⟩
  have q0 : win0_17.index t (0 : Fin 2) = (i 0).val / 256 := congrFun ht 0
  have q1 : win0_17.index t (1 : Fin 2) = 0 := congrFun ht 1
  refine ⟨t, flush0_17 t, ?_⟩
  rw [mem_blk]
  intro a
  match a with
  | ⟨0, _⟩ => show win0_17.index t (0 : Fin 2) * 256 ≤ (i 0).val ∧ (i 0).val < win0_17.index t (0 : Fin 2) * 256 + 256; omega
  | ⟨1, _⟩ => show win0_17.index t (1 : Fin 2) * 1024 ≤ (i 1).val ∧ (i 1).val < win0_17.index t (1 : Fin 2) * 1024 + 1024; omega

/-- THE ARRAY after the run is the cell on the launch arguments. -/
theorem final (c : Dev nD) : (dats m 0 c).arrAt 17 cfg0.N = result m c :=
  (dats m 0 c).arrAt_eq_of_cover 17 (result m c) (fun t _ => flushed_eq m c t) covered

/-- The kernel's run, read: the result array at the cell on the arguments, the arguments unchanged. -/
theorem run : θ_run defs (onTc (τ := τ) (main (F := Ideal))) ⟨m, fun _ => 0, ρ⟩ fun r => ∀ c : Dev nD,
      r.2.mem ((c : Thread nD τ).loc main_v29) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final m c), (h c).2⟩) (Value.run_blocks m ρ)

end Cert.GatedCell.Launch

end
-- ==== Proof.RefOps.lean ====
/-
  The reference's operations read at one entry (b, j) of a batch × feature array.

  The reference multiplies by the transpose of each weight, so a projection at (b, j) is row b of
  the input against ROW j of the weight. The two wide weights meet the concatenation [x, h]: the
  contraction over 2048 splits into its low half, which reads `x` and the weight's columns below
  1024, and its high half, which reads `h` and the columns from 1024 on. A bias is broadcast down
  the batch: at (b, j) it is the bias at j.
-/
import proofs.«133097_j42683384987795_1_alg».proof.Proof.Gen.ReferenceIdeal.Read
import proofs.«133097_j42683384987795_1_alg».proof.Proof.CellSpec
import Idealize.ShloMosaic.Lib.ValueIdx
import Idealize.ShloMosaic.Lib.Pipeline.Value
import Idealize.ShloMosaic.PureOps.Ideal.Laws

noncomputable section

open scoped BigOperators

namespace Cert.GatedCell.Ref

open Cert.ReferenceIdeal Cert.ReferenceIdeal.Gen Cert.ReferenceIdeal.Read Idealize.ShloMosaic Idealize.ShloMosaic.ValueIdx Cert.GatedCell

/-- Row b of a batch × feature array. -/
abbrev rowOf (v : S8192x1024.Idx → EReal) (b : Fin 8192) : Row := fun k => v (ix2 b k)
/-- A square weight as `w j k`. -/
abbrev matOf (w : S1024x1024.Idx → EReal) : Mat := fun j k => w (ix2 j k)
/-- The low and the high half of a wide weight's columns. -/
abbrev matLo (w : S1024x2048.Idx → EReal) : Mat := fun j k => w (ix2 j (lo k))
abbrev matHi (w : S1024x2048.Idx → EReal) : Mat := fun j k => w (ix2 j (hi k))
/-- A bias vector as a row. -/
abbrev biasOf (v : S1024.Idx → EReal) : Row := fun j => v (ix1 j)

/-- A projection by a square weight's transpose, at (b, j). -/
theorem proj_apply (a : S8192x1024.Idx → EReal) (w : S1024x1024.Idx → EReal) (b : Fin 8192) (j : Fin 1024) :
    val_main_v25 (F := Ideal) a w (ix2 b j) = dotv (rowOf a b) (matOf w) j := by
  rw [val_main_v25_apply]
  refine Finset.sum_congr rfl fun k _ => ?_
  rw [val_main_v24_apply]
  exact congrArg₂ (· * ·)
    (congrArg a (funext fun d => Fin.ext (by match d with | ⟨0, _⟩ => rfl | ⟨1, _⟩ => rfl)))
    (congrArg w (funext fun d => Fin.ext (by match d with | ⟨0, _⟩ => rfl | ⟨1, _⟩ => rfl)))

/-- A bias broadcast down the batch, at (b, j). -/
theorem bias_apply (v : S1024.Idx → EReal) (b : Fin 8192) (j : Fin 1024) :
    val_main_v4 (F := Ideal) v (ix2 b j) = v (ix1 j) := by
  rw [val_main_v4_apply, val_main_v3_apply]
  exact congrArg v (funext fun d => Fin.ext (by match d with | ⟨0, _⟩ => rfl))

/-- The concatenation [x, h] at a column of the low half reads `x`. -/
theorem concat_lo (x h : S8192x1024.Idx → EReal) (b : Fin 8192) (k : Fin 1024) :
    val_main_v0 (F := Ideal) x h (ix2 b (lo k)) = x (ix2 b k) := by
  unfold val_main_v0
  exact concatenate_pair_apply_left 1 x h concatenates_S8192x1024_S8192x1024_S8192x2048_d1 (ix2 b (lo k)) rfl (ix2 b k)
    (fun d => by match d with | ⟨0, _⟩ => rfl | ⟨1, _⟩ => rfl)

/-- The concatenation [x, h] at a column of the high half reads `h`. -/
theorem concat_hi (x h : S8192x1024.Idx → EReal) (b : Fin 8192) (k : Fin 1024) :
    val_main_v0 (F := Ideal) x h (ix2 b (hi k)) = h (ix2 b k) := by
  unfold val_main_v0
  exact concatenate_pair_apply_right 1 x h concatenates_S8192x1024_S8192x1024_S8192x2048_d1 (ix2 b (hi k)) rfl rfl (ix2 b k)
    (fun d hd => by match d with | ⟨0, _⟩ => rfl | ⟨1, _⟩ => exact absurd rfl hd)
    (by show k.val + 1024 = 1024 + k.val; omega)

/-- A projection of [x, h] by a wide weight's transpose, at (b, j): the low half meets `x`, the high half `h`. -/
theorem wide_apply (x h : S8192x1024.Idx → EReal) (w : S1024x2048.Idx → EReal) (b : Fin 8192) (j : Fin 1024) :
    val_main_v2 (F := Ideal) x h w (ix2 b j) = dotv (rowOf x b) (matLo w) j + dotv (rowOf h b) (matHi w) j := by
  rw [val_main_v2_apply, sum_halves]
  refine congrArg₂ (· + ·) (Finset.sum_congr rfl fun k _ => ?_) (Finset.sum_congr rfl fun k _ => ?_)
  · rw [val_main_v1_apply]
    refine congrArg₂ (· * ·) ((congrArg (val_main_v0 (F := Ideal) x h) (funext fun d => Fin.ext (by match d with | ⟨0, _⟩ => rfl | ⟨1, _⟩ => rfl))).trans (concat_lo x h b k)) ?_
    exact congrArg w (funext fun d => Fin.ext (by match d with | ⟨0, _⟩ => rfl | ⟨1, _⟩ => rfl))
  · rw [val_main_v1_apply]
    refine congrArg₂ (· * ·) ((congrArg (val_main_v0 (F := Ideal) x h) (funext fun d => Fin.ext (by match d with | ⟨0, _⟩ => rfl | ⟨1, _⟩ => rfl))).trans (concat_hi x h b k)) ?_
    exact congrArg w (funext fun d => Fin.ext (by match d with | ⟨0, _⟩ => rfl | ⟨1, _⟩ => rfl))

end Cert.GatedCell.Ref

end
-- ==== Proof.RefCell.lean ====
/-
  The reference's result, entry by entry, is the cell applied to the arguments' rows.

  Three things separate the reference's text from the cell as stated:
    · it adds the bias between the two projections of a gate and of the candidate, (A + b) + B
      where the cell has (A + B) + b: addition of extended reals is commutative and associative;
    · it spells the logistic function out, 1 / (1 + e^(−t)) with the word of 1.0 for both ones:
      that IS the logistic function as defined on the extended reals, infinities included;
    · its row sum of exponentials starts from the word of 0.0, which denotes 0.
  The softmax's maximum, the rectifier and the final combination are the cell's own operations.
-/
import proofs.«133097_j42683384987795_1_alg».proof.Proof.RefOps

noncomputable section

open scoped BigOperators

namespace Cert.GatedCell.Ref

open Cert.ReferenceIdeal Cert.ReferenceIdeal.Gen Cert.ReferenceIdeal.Read Idealize.ShloMosaic Idealize.ShloMosaic.ValueIdx Cert.GatedCell

/-- The logistic function spelt out with the word of 1.0. -/
theorem logistic_spelt (t : EReal) : Ideal.div oneW (oneW + Ideal.exp (-t)) = Ideal.logistic t := by
  rw [oneW_eq]; rfl

/-- Reducing the feature axis of a batch × feature array. -/
theorem redRows : S8192x1024.Reduces [1] S8192 := by decide

/-- The reduction's inserted index: row b with column k put back. -/
theorem lift_row (b : Fin 8192) (k : Fin 1024) : redRows.lift (ix1 b) k = ix2 b k :=
  funext fun a => Fin.ext (by match a with | ⟨0, _⟩ => rfl | ⟨1, _⟩ => rfl)

/-- The largest entry of row b, folded from −∞. -/
theorem rowMax_apply (s : S8192x1024.Idx → EReal) (b : Fin 8192) :
    Host.reduce (FloatOps.maximumf (F := Ideal) (φ := .f32)) s (val_main_cst (F := Ideal)) reducesTo_S8192x1024_S8192_d1 h_S_ (ix1 b)
      = (Finset.univ : Finset (Fin 1024)).fold max negInf (fun k => s (ix2 b k)) := by
  refine (Host.reduce_eq_fold_single (FloatOps.maximumf (F := Ideal) (φ := .f32)) s _ reducesTo_S8192x1024_S8192_d1 redRows h_S_ (ix1 b)).trans ?_
  exact congrArg (fun f : Fin 1024 → EReal => (Finset.univ : Finset (Fin 1024)).fold max negInf f)
    (funext fun k => congrArg s (lift_row b k))

section Attention
variable (x h : S8192x1024.Idx → EReal) (w : S1024x2048.Idx → EReal) (v : S1024.Idx → EReal)

/-- The attention score at (b, j). -/
theorem score_apply (b : Fin 8192) (j : Fin 1024) :
    val_main_v5 (F := Ideal) x h w v (ix2 b j) = score (rowOf x b) (rowOf h b) (matLo w) (matHi w) (biasOf v) j := by
  rw [val_main_v5_apply, wide_apply, bias_apply]; rfl

/-- The row's maximum, as the softmax takes it. -/
theorem top_apply (b : Fin 8192) :
    val_main_v8 (F := Ideal) x h w v (ix1 b) = top (fun j => val_main_v5 (F := Ideal) x h w v (ix2 b j)) := by
  rw [val_main_v8_apply, val_main_v7_apply, val_main_cst_0_apply]
  unfold val_main_v6
  rw [rowMax_apply]
  rfl

/-- The shifted exponential at (b, j). -/
theorem shifted_apply (b : Fin 8192) (j : Fin 1024) :
    val_main_v12 (F := Ideal) x h w v (ix2 b j)
      = Ideal.exp (val_main_v5 (F := Ideal) x h w v (ix2 b j) - top (fun j => val_main_v5 (F := Ideal) x h w v (ix2 b j))) := by
  rw [val_main_v12_apply, val_main_v11_apply, val_main_v10_apply, val_main_v9_apply]
  have e : idx_main_v9 (idx_main_v10 (ix2 b j)) = ix1 b := funext fun a => Fin.ext (by match a with | ⟨0, _⟩ => rfl)
  rw [e, top_apply]
  rfl

/-- The row's sum of shifted exponentials. -/
theorem norm_apply (b : Fin 8192) :
    val_main_v13 (F := Ideal) x h w v (ix1 b) = ∑ k : Fin 1024, val_main_v12 (F := Ideal) x h w v (ix2 b k) := by
  rw [val_main_v13_apply, val_main_cst_1_apply]
  show Ideal.ofBits .f32 0x00000000#32 + _ = _
  rw [Ideal.ofBits_zero_f32, zero_add]
  exact Finset.sum_congr rfl fun k _ => congrArg (val_main_v12 (F := Ideal) x h w v)
    (funext fun a => Fin.ext (by match a with | ⟨0, _⟩ => rfl | ⟨1, _⟩ => rfl))

/-- The attention weight at (b, j): the softmax over row b of the scores. -/
theorem attn_apply (b : Fin 8192) (j : Fin 1024) :
    val_main_v16 (F := Ideal) x h w v (ix2 b j)
      = softmax (score (rowOf x b) (rowOf h b) (matLo w) (matHi w) (biasOf v)) j := by
  rw [val_main_v16_apply, val_main_v15_apply, val_main_v14_apply]
  have e : idx_main_v14 (idx_main_v15 (ix2 b j)) = ix1 b := funext fun a => Fin.ext (by match a with | ⟨0, _⟩ => rfl)
  rw [e, norm_apply, shifted_apply]
  simp only [shifted_apply, score_apply]
  rfl

end Attention

/-- The second gate's, the candidate's and the extra state's stages are the first ones' operations under other names. -/
theorem v30_eq (a : S8192x1024.Idx → EReal) (w : S1024x1024.Idx → EReal) : val_main_v30 (F := Ideal) a w = val_main_v25 (F := Ideal) a w := rfl
theorem v27_eq (v : S1024.Idx → EReal) : val_main_v27 (F := Ideal) v = val_main_v4 (F := Ideal) v := rfl

/-- A gate at (b, j). -/
theorem gate_apply (x h : S8192x1024.Idx → EReal) (wx wh : S1024x1024.Idx → EReal) (v : S1024.Idx → EReal)
    (b : Fin 8192) (j : Fin 1024) :
    val_main_v37 (F := Ideal) x h wx wh v (ix2 b j) = gate (rowOf x b) (rowOf h b) (matOf wx) (matOf wh) (biasOf v) j := by
  rw [val_main_v37_apply, val_main_v36_apply, val_main_cst_3_apply, val_main_v35_apply, val_main_v34_apply,
    val_main_cst_2_apply, val_main_v33_apply, val_main_v32_apply, val_main_v31_apply, val_main_v28_apply,
    v30_eq, v27_eq, proj_apply, proj_apply, bias_apply]
  show Ideal.div oneW (oneW + Ideal.exp (-((dotv (rowOf x b) (matOf wx) j + v (ix1 j)) + dotv (rowOf h b) (matOf wh) j))) = _
  rw [logistic_spelt, add_right_comm]
  rfl

theorem v51_eq (x h : S8192x1024.Idx → EReal) (wx wh : S1024x1024.Idx → EReal) (v : S1024.Idx → EReal) :
    val_main_v51 (F := Ideal) x h wx wh v = val_main_v37 (F := Ideal) x h wx wh v := rfl
theorem v53_eq (a : S8192x1024.Idx → EReal) (w : S1024x1024.Idx → EReal) : val_main_v53 (F := Ideal) a w = val_main_v25 (F := Ideal) a w := rfl
theorem v55_eq (v : S1024.Idx → EReal) : val_main_v55 (F := Ideal) v = val_main_v4 (F := Ideal) v := rfl
theorem v59_eq (x h : S8192x1024.Idx → EReal) (wx wh : S1024x1024.Idx → EReal) (v : S1024.Idx → EReal) (w : S1024x1024.Idx → EReal) :
    val_main_v59 (F := Ideal) x h wx wh v w = val_main_v25 (F := Ideal) (val_main_v57 (F := Ideal) x h wx wh v) w := rfl
theorem v21_eq (x h : S8192x1024.Idx → EReal) (w : S1024x2048.Idx → EReal) (v : S1024.Idx → EReal) :
    val_main_v21 (F := Ideal) x h w v = val_main_v5 (F := Ideal) x h w v := rfl

/-- The gated state's row b: the reset gate times the state. -/
theorem gated_row (x h : S8192x1024.Idx → EReal) (wx wh : S1024x1024.Idx → EReal) (v : S1024.Idx → EReal) (b : Fin 8192) :
    rowOf (val_main_v57 (F := Ideal) x h wx wh v) b
      = fun k => gate (rowOf x b) (rowOf h b) (matOf wx) (matOf wh) (biasOf v) k * h (ix2 b k) :=
  funext fun k => by
    show val_main_v57 (F := Ideal) x h wx wh v (ix2 b k) = _
    rw [val_main_v57_apply, gate_apply]
    rfl

/-- The candidate state at (b, j). -/
theorem cand_apply (x h : S8192x1024.Idx → EReal) (wxr whr : S1024x1024.Idx → EReal) (br : S1024.Idx → EReal)
    (wxh whh : S1024x1024.Idx → EReal) (bh : S1024.Idx → EReal) (b : Fin 8192) (j : Fin 1024) :
    val_main_v61 (F := Ideal) x h wxr whr br wxh whh bh (ix2 b j)
      = cand (rowOf x b) (rowOf h b) (matOf wxr) (matOf whr) (biasOf br) (matOf wxh) (matOf whh) (biasOf bh) j := by
  rw [val_main_v61_apply, val_main_v60_apply, val_main_v56_apply, v53_eq, v55_eq, v59_eq, proj_apply, proj_apply, bias_apply,
    gated_row]
  show Ideal.tanh ((dotv (rowOf x b) (matOf wxh) j + bh (ix1 j))
    + dotv (fun k => gate (rowOf x b) (rowOf h b) (matOf wxr) (matOf whr) (biasOf br) k * h (ix2 b k)) (matOf whh) j) = _
  rw [add_right_comm]
  rfl

/-- The rectified extra state at (b, j). -/
theorem extra_apply (x h : S8192x1024.Idx → EReal) (w : S1024x2048.Idx → EReal) (v : S1024.Idx → EReal) (b : Fin 8192) (j : Fin 1024) :
    val_main_v22 (F := Ideal) x h w v (ix2 b j) = max (score (rowOf x b) (rowOf h b) (matLo w) (matHi w) (biasOf v) j) zeroW := by
  rw [val_main_v22_apply, v21_eq, score_apply, val_main_call0_v0_apply, val_main_call0_cst_apply]
  rfl

/-- THE REFERENCE'S RESULT is the cell on the argument arrays. -/
theorem ref_eq (x0 x1 : S8192x1024.Idx → EReal) (x2 x3 : S1024x1024.Idx → EReal) (x4 : S1024.Idx → EReal)
    (x5 x6 : S1024x1024.Idx → EReal) (x7 : S1024.Idx → EReal) (x8 x9 : S1024x1024.Idx → EReal) (x10 : S1024.Idx → EReal)
    (x11 : S1024x2048.Idx → EReal) (x12 : S1024.Idx → EReal) (x13 : S1024x2048.Idx → EReal) (x14 : S1024.Idx → EReal) :
    val_main_v67 (F := Ideal) x0 x1 x2 x3 x4 x5 x6 x7 x8 x9 x10 x11 x12 x13 x14
      = cellArr x0 x1 x2 x3 x5 x6 x8 x9 x11 x13 x4 x7 x10 x12 x14 := by
  funext i
  obtain ⟨b, j, rfl⟩ : ∃ (b : Fin 8192) (j : Fin 1024), i = ix2 b j := ⟨i 0, i 1, eq_ix2 i⟩
  rw [cellArr_apply, val_main_v67_apply, val_main_v66_apply, val_main_v64_apply, val_main_v63_apply, val_main_v62_apply,
    val_main_cst_6_apply, val_main_v65_apply, val_main_v23_apply, v51_eq, gate_apply, cand_apply, attn_apply, extra_apply]
  rfl

end Cert.GatedCell.Ref

end
-- ==== Proof.lean ====
/-
  A gated recurrent cell with an attention gate: a Pallas kernel over 32 blocks of 256 batch rows
  against its jnp reference, equal over the extended reals.

  Per batch row, with x the input row and h the previous state's row (1024 features each):
    r = σ(x·Wxrᵀ + h·Whrᵀ + b_r),   z = σ(x·Wxzᵀ + h·Whzᵀ + b_z),
    c = tanh(x·Wxhᵀ + (r ⊙ h)·Whhᵀ + b_h),
    a = softmax([x, h]·Wcᵀ + b_c),   e = max([x, h]·Wâᵀ + b_â, 0),
    new state = (1 − z) ⊙ c + z ⊙ h + a ⊙ e.
  The kernel stages each weight transposed (the two wide weights as their two halves of columns),
  multiplies in bf16 — the identity on extended reals — and adds a gate's bias after both of its
  products; the reference concatenates [x, h] and contracts over 2048, adds the bias between the two
  products, and spells the logistic function out as 1 / (1 + e^(−t)). Over the extended reals these
  are one function: a finite sum splits into its halves and addition commutes and associates (no
  finiteness is used), and 1 / (1 + e^(−t)) is the logistic function by definition, infinities
  included. The softmax, the rectifier, tanh and the final combination are the same operations on
  both sides.

  Proof/CellSpec.lean states the cell one row at a time; Proof/BodyOps.lean and Proof/BodyCell.lean
  read the kernel body's block entry by entry as that cell; Proof/HostArrays.lean and
  Proof/Blocks.lean carry the blocks to the whole result array; Proof/RefOps.lean and
  Proof/RefCell.lean read the reference's result as the same cell. Here the five claims are put
  together: both runs end at ONE array, the cell on the (agreeing) arguments.
-/
import proofs.«133097_j42683384987795_1_alg».proof.Defs
import proofs.«133097_j42683384987795_1_alg».proof.Proof.Gen.Kernel
import proofs.«133097_j42683384987795_1_alg».proof.Proof.Gen.Kernel.Skeleton
import proofs.«133097_j42683384987795_1_alg».proof.Proof.Gen.Kernel.Launch
import proofs.«133097_j42683384987795_1_alg».proof.Proof.Gen.Kernel.Points
import proofs.«133097_j42683384987795_1_alg».proof.Proof.Gen.Kernel.Frame
import proofs.«133097_j42683384987795_1_alg».proof.Proof.Gen.KernelIdeal
import proofs.«133097_j42683384987795_1_alg».proof.Proof.Gen.KernelIdeal.Skeleton
import proofs.«133097_j42683384987795_1_alg».proof.Proof.Gen.KernelIdeal.Launch
import proofs.«133097_j42683384987795_1_alg».proof.Proof.Gen.KernelIdeal.Points
import proofs.«133097_j42683384987795_1_alg».proof.Proof.Gen.KernelIdeal.Frame
import proofs.«133097_j42683384987795_1_alg».proof.Proof.Gen.KernelIdeal.Value
import proofs.«133097_j42683384987795_1_alg».proof.Proof.Gen.ReferenceIdeal
import proofs.«133097_j42683384987795_1_alg».proof.Proof.Gen.ReferenceIdeal.Run
import proofs.«133097_j42683384987795_1_alg».proof.Proof.Gen.ReferenceIdeal.Read
import proofs.«133097_j42683384987795_1_alg».proof.Proof.Gen.Pre_finite_inputs
import proofs.«133097_j42683384987795_1_alg».proof.Proof.Blocks
import proofs.«133097_j42683384987795_1_alg».proof.Proof.RefCell
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both runs end with the result array at the cell on the arguments: the kernel's by its 32 blocks, the
    reference's by its operations read entry by entry; the arguments agree. -/
theorem algebraic : Cert.algebraic_KernelIdeal_ReferenceIdeal := by
  intro m ρ m' ρ' _ hagree
  refine ⟨fun c => Cert.GatedCell.Launch.result m c, Cert.GatedCell.Launch.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v67_eq, Cert.GatedCell.Ref.ref_eq]
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
